-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x8192x1024 .f32) (main_arg1 : FVec F S1024x1024 .f32) (main_arg2 : FVec F S1024 .f32) (main_arg3 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x8192x1024 : Shape := ⟨3, ![8, 8192, 1024]⟩
abbrev S1024x1024 : Shape := ⟨2, ![1024, 1024]⟩
abbrev S1024 : Shape := ⟨1, ![1024]⟩
abbrev S65536x1024 : Shape := ⟨2, ![65536, 1024]⟩
abbrev S_ : Shape := ⟨0, ![]⟩
abbrev S1x1024 : Shape := ⟨2, ![1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S65536x1024, .f32⟩
  | .hbm, ⟨11, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x8192x1024_S65536x1024 : S8x8192x1024.ShapeCasts S65536x1024
  bcast_S_S1024 : S_.BroadcastsInDim S1024 (![] : Fin 0 → Fin S1024.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S8x8192x1024 : S65536x1024.ShapeCasts S8x8192x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1x1024, .f32⟩
  | .hbm, ⟨9, _⟩ => ⟨S8x8192x1024, .f32⟩
  | .hbm, ⟨10, _⟩ => ⟨S8x8192x1024, .f32⟩
  | .hbm, ⟨11, _⟩ => ⟨S1x1x1024, .f32⟩
  | .hbm, ⟨12, _⟩ => ⟨S8x8192x1024, .f32⟩
  | .hbm, ⟨13, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S1024x1024_S8x8192x1024_2_1_01_0_n_n_wf : DotDims.WF S8x8192x1024 S1024x1024 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Spec.lean ====
/-
  The function both programs compute, written once over literal shapes, with extended-real entries.

  With `x : [8, 8192, 1024]`, the integer code matrix `w : [1024, 1024]` (row `n` holds the codes of output
  channel `n`), the per-channel scales `scb : [1024]` and `bias : [1024]`:

      out[b, s, n] = (Σ_k x[b, s, k] · w[n, k]) · (scb[n] · c) + bias[n],        c = the f32 nearest to 1/127.

  The kernel works on the row-flattened input `x2 : [65536, 1024]` (row `r = b · 8192 + s`) with the scale and the bias
  as one-row matrices, and fills the row-flattened result `rows`; unflattening `rows` gives `out`
  (`unflatten_rows`). No law of arithmetic is used: the two sides are the same expression, read through two layouts.
-/
import Idealize.ShloMosaic.PureOps.Ideal
import Idealize.ShloMosaic.Lib.ValueIdx
import Idealize.ShloMosaic.Lib.ValueLayout
import Idealize.ShloMosaic.Lib.Pipeline.Value

noncomputable section

namespace Cert.DequantLinear

open Idealize.ShloMosaic Idealize.ShloMosaic.ValueIdx

abbrev Sx : Shape := ⟨3, ![8, 8192, 1024]⟩
abbrev Sw : Shape := ⟨2, ![1024, 1024]⟩
abbrev Sv : Shape := ⟨1, ![1024]⟩
abbrev Sm : Shape := ⟨2, ![65536, 1024]⟩
abbrev Sr : Shape := ⟨2, ![1, 1024]⟩
abbrev S0 : Shape := ⟨0, ![]⟩

/-- The dequantisation constant: the f32 word both programs multiply the scales by. -/
def c127 : EReal := Ideal.ofBits .f32 0x3C010204#32

/-- The row-flattened result from the row-flattened input: entry `(r, n)` is row `r` of `x2` against row `n` of `w`,
    times the one-row scale at `n`, plus the one-row bias at `n`. -/
def rows (x2 : Sm.Idx → EReal) (w : Sw.Idx → EReal) (sc bi : Sr.Idx → EReal) : Sm.Idx → EReal := fun i =>
  (∑ k : Fin 1024, x2 (ix2 (i 0) k) * w (ix2 (i 1) k)) * sc (ix2 (0 : Fin 1) (i 1)) + bi (ix2 (0 : Fin 1) (i 1))

/-- The result over the original layout. -/
def out (x : Sx.Idx → EReal) (w : Sw.Idx → EReal) (scb bias : Sv.Idx → EReal) : Sx.Idx → EReal := fun i =>
  (∑ k : Fin 1024, x (ix3 (i 0) (i 1) k) * w (ix2 (i 2) k)) * (scb (ix1 (i 2)) * c127) + bias (ix1 (i 2))

/-- Flattening the two leading axes: entry `(b · 8192 + s, k)` of the flattened input is entry `(b, s, k)`. -/
theorem flatten_apply (x : Sx.Idx → EReal) (h : Sx.ShapeCasts Sm) (b : Fin 8) (s : Fin 8192) (k : Fin 1024)
    (r : Fin 65536) (hr : r.val = b.val * 8192 + s.val) :
    shapeCast Sm x h (ix2 r k) = x (ix3 b s k) :=
  shapeCast_apply x h _ _ (by
    rw [Shape.rowMajor_val_three, Shape.rowMajor_val_two]
    show (b.val * 8192 + s.val) * 1024 + k.val = r.val * 1024 + k.val
    rw [hr])

/-- Unflattening: entry `(b, s, n)` of the unflattened array is entry `(b · 8192 + s, n)`. -/
theorem unflatten_apply (y : Sm.Idx → EReal) (h : Sm.ShapeCasts Sx) (b : Fin 8) (s : Fin 8192) (n : Fin 1024)
    (r : Fin 65536) (hr : r.val = b.val * 8192 + s.val) :
    shapeCast Sx y h (ix3 b s n) = y (ix2 r n) :=
  shapeCast_apply y h _ _ (by
    rw [Shape.rowMajor_val_three, Shape.rowMajor_val_two]
    show r.val * 1024 + n.val = (b.val * 8192 + s.val) * 1024 + n.val
    rw [hr])

/-- The scales as the host prepares them — each times the constant, laid out as one row — read at a column. -/
theorem scale_row_apply (scb : Sv.Idx → EReal) (hb : S0.BroadcastsInDim Sv (![] : Fin 0 → Fin Sv.rank)) (h : Sv.ShapeCasts Sr) (n : Fin 1024) :
    shapeCast Sr (mulf (F := Ideal) (φ := .f32) scb (broadcastInDim Sv ![] hb (constant (F := Ideal) S0 .f32 0x3C010204#32))) h (ix2 (0 : Fin 1) n)
      = scb (ix1 n) * c127 := by
  rw [shapeCast_a_1a_apply]
  rfl

/-- The result of the row-flattened computation on the flattened input and the one-row scale and bias, unflattened, is
    `out`. -/
theorem unflatten_rows (x : Sx.Idx → EReal) (w : Sw.Idx → EReal) (scb bias : Sv.Idx → EReal)
    (h1 : Sx.ShapeCasts Sm) (h2 : Sv.ShapeCasts Sr) (h3 : Sm.ShapeCasts Sx)
    (hb : S0.BroadcastsInDim Sv (![] : Fin 0 → Fin Sv.rank)) :
    shapeCast Sx (rows (shapeCast Sm x h1) w
        (shapeCast Sr (mulf (F := Ideal) (φ := .f32) scb (broadcastInDim Sv ![] hb (constant (F := Ideal) S0 .f32 0x3C010204#32))) h2)
        (shapeCast Sr bias h2)) h3
      = out x w scb bias := by
  funext i
  obtain ⟨b, s, n, rfl⟩ : ∃ (b : Fin 8) (s : Fin 8192) (n : Fin 1024), i = ix3 b s n := ⟨i 0, i 1, i 2, eq_ix3 i⟩
  have hlt : b.val * 8192 + s.val < 65536 := by have := b.isLt; have := s.isLt; omega
  rw [unflatten_apply _ h3 b s n ⟨b.val * 8192 + s.val, hlt⟩ rfl]
  unfold rows out
  show (∑ k : Fin 1024, shapeCast Sm x h1 (ix2 ⟨b.val * 8192 + s.val, hlt⟩ k) * w (ix2 n k))
      * shapeCast Sr _ h2 (ix2 (0 : Fin 1) n) + shapeCast Sr bias h2 (ix2 (0 : Fin 1) n)
    = (∑ k : Fin 1024, x (ix3 b s k) * w (ix2 n k)) * (scb (ix1 n) * c127) + bias (ix1 n)
  rw [scale_row_apply, shapeCast_a_1a_apply]
  congr 2
  exact Finset.sum_congr rfl fun k _ => by rw [flatten_apply x h1 b s k _ rfl]

end Cert.DequantLinear

end
-- ==== Proof.KernelBlock.lean ====
/-
  What one grid point computes, read at an entry. The body loads a 1024-row block `xb` of the flattened input, the whole
  code matrix `w`, the one-row scale `sc` and the one-row bias `bi`; it contracts `xb` with `w` over the last axis of
  both into a zero accumulator, multiplies by the scale broadcast down the rows and adds the bias broadcast down the
  rows. At the ideal values the narrowing of the operands to bf16 changes nothing and the zero accumulator drops out, so
  entry `(p, q)` of the stored block is `(Σ_k xb[p, k] · w[q, k]) · sc[0, q] + bi[0, q]`.
-/
import proofs.«170076_j14748917694589_1_alg».proof.Proof.Gen.KernelIdeal.Skeleton
import proofs.«170076_j14748917694589_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.DequantLinear

/-! ## The contraction's operand indices, axis by axis: output `(p, q)` and contraction index `k` read the left operand
    at `(p, k)` and the right operand at `(q, k)`. -/

theorem lhs_axis0 (i : S1024x1024.Idx) (r : dot_S1024x1024_S1024x1024_S1024x1024_1_1_0_0_n_n.contr.Idx) :
    (dot_S1024x1024_S1024x1024_S1024x1024_1_1_0_0_n_n.lhsIdx i r 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (r : dot_S1024x1024_S1024x1024_S1024x1024_1_1_0_0_n_n.contr.Idx) :
    (dot_S1024x1024_S1024x1024_S1024x1024_1_1_0_0_n_n.lhsIdx i r 1).val = (r ⟨0, by decide⟩).val :=
  dot_S1024x1024_S1024x1024_S1024x1024_1_1_0_0_n_n.lhsIdx_val_of_single rfl i r
theorem rhs_axis0 (i : S1024x1024.Idx) (r : dot_S1024x1024_S1024x1024_S1024x1024_1_1_0_0_n_n.contr.Idx) :
    (dot_S1024x1024_S1024x1024_S1024x1024_1_1_0_0_n_n.rhsIdx i r 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (r : dot_S1024x1024_S1024x1024_S1024x1024_1_1_0_0_n_n.contr.Idx) :
    (dot_S1024x1024_S1024x1024_S1024x1024_1_1_0_0_n_n.rhsIdx i r 1).val = (r ⟨0, by decide⟩).val :=
  dot_S1024x1024_S1024x1024_S1024x1024_1_1_0_0_n_n.rhsIdx_val_of_single rfl i r

/-- The matrix product into a zero accumulator, at `(p, q)`: the sum over `k` of `a[p, k] · b[q, k]`. -/
theorem contraction_apply (a b : FVec Ideal S1024x1024 .bf16) (p q : Fin 1024) :
    matmul (F := Ideal) dot_S1024x1024_S1024x1024_S1024x1024_1_1_0_0_n_n none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- The stored block at `(p, q)`. -/
theorem payload_apply (xb w : Vec Ideal S1024x1024 .f32) (sc bi : Vec Ideal S1x1024 .f32) (p q : Fin 1024) :
    k0_pay1 (F := Ideal) xb w sc bi (ix2 p q)
      = (∑ k : Fin 1024, xb (ix2 p k) * w (ix2 q k)) * sc (ix2 (0 : Fin 1) q) + bi (ix2 (0 : Fin 1) q) := by
  unfold k0_pay1
  simp only [shapeCast_self]
  show matmul (F := Ideal) dot_S1024x1024_S1024x1024_S1024x1024_1_1_0_0_n_n none _ _ (constant (F := Ideal) S1024x1024 .f32 0x00000000#32) (ix2 p q)
      * broadcastTo S1024x1024 sc broadcasts_S1x1024_S1024x1024 (ix2 p q)
      + broadcastTo S1024x1024 bi broadcasts_S1x1024_S1024x1024 (ix2 p q) = _
  rw [contraction_apply, broadcastTo_1b_ab_apply, broadcastTo_1b_ab_apply]
  rfl

/-- The stored block is a block of `rows`: if the loaded blocks are the arrays `X`, `W`, `SC`, `BI` read along row
    `i 0` (for the input) and row `i 1` (for the codes) and at column `i 1` (for the scale and the bias), then entry `j` of the
    stored block is entry `i` of `rows X W SC BI`. -/
theorem payload_eq_rows (xb w : Vec Ideal S1024x1024 .f32) (sc bi : Vec Ideal S1x1024 .f32)
    (X : Sm.Idx → EReal) (W : Sw.Idx → EReal) (SC BI : Sr.Idx → EReal) (j : S1024x1024.Idx) (i : Sm.Idx)
    (hx : ∀ k : Fin 1024, xb (ix2 (j 0) k) = X (ix2 (i 0) k))
    (hw : ∀ k : Fin 1024, w (ix2 (j 1) k) = W (ix2 (i 1) k))
    (hsc : sc (ix2 (0 : Fin 1) (j 1)) = SC (ix2 (0 : Fin 1) (i 1)))
    (hbi : bi (ix2 (0 : Fin 1) (j 1)) = BI (ix2 (0 : Fin 1) (i 1))) :
    k0_pay1 (F := Ideal) xb w sc bi j = rows X W SC BI i := by
  refine ((congrArg (k0_pay1 (F := Ideal) xb w sc bi) (eq_ix2 j)).trans (payload_apply xb w sc bi (j 0) (j 1))).trans ?_
  unfold rows
  rw [hsc, hbi]
  exact congrArg (fun z : EReal => z * SC (ix2 (0 : Fin 1) (i 1)) + BI (ix2 (0 : Fin 1) (i 1)))
    (Finset.sum_congr rfl fun k _ => by rw [hx k, hw k])

end Cert.KernelIdeal.Block

end
-- ==== Proof.KernelArray.lean ====
/-
  From blocks to the array. The grid has 64 points; point `t` loads rows `1024·t … 1024·t + 1023` of the flattened input,
  the whole code matrix and the one-row scale and bias (the same block at every point), and writes back rows
  `1024·t … 1024·t + 1023` of the flattened result. Entry `(p, q)` of that block is entry `(1024·t + p, q)` of
  `DequantLinear.rows` of the arrays as the region finds them, the 64 blocks tile the `65536 × 1024` array (row `r` is in
  block `r / 1024`), so the array after the region is `rows` of them.
-/
import proofs.«170076_j14748917694589_1_alg».proof.Proof.Gen.KernelIdeal.Frame
import proofs.«170076_j14748917694589_1_alg».proof.Proof.KernelBlock
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem Cert.DequantLinear
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The block indices, decided over the grid: the input's and the output's row-block index is the point itself, every other
    block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `rows` of the arrays as the region finds them. -/
theorem flushed_eq (c : Dev nD) (t : Fin cfg0.N) :
    (dats m 0 c).flushed 4 t = ((cfg0.win 4).blk t).view.read (Elt Ideal)
      (rows (V m c main_v0) (V m c main_arg1) (V m c main_v3) (V m c main_v4)) := by
  show (cfg0.win 4).cut (grid0.coords t) ((dats m 0 c).after 4 t) = _
  rw [after0_4]
  unfold out0_4
  rw [View.canon_unit_zero origin]
  simp only [View.ld_unit_zero (S := S1024x1024) origin, View.ld_unit_zero (S := S1x1024) origin]
  obtain ⟨e00, e01, e10, e11, e20, e21, e30, e31, e40, e41⟩ := block_indices t
  funext j
  show k0_pay1 (F := Ideal) (iblk m c 0 t) (iblk m c 1 t) (iblk m c 2 t) (iblk m c 3 t) j
    = rows (V m c main_v0) (V m c main_arg1) (V m c main_v3) (V m c main_v4) (((cfg0.win 4).blk t).view.emb j)
  refine Block.payload_eq_rows (iblk m c 0 t) (iblk m c 1 t) (iblk m c 2 t) (iblk m c 3 t)
    (V m c main_v0) (V m c main_arg1) (V m c main_v3) (V m c main_v4) j (((cfg0.win 4).blk t).view.emb j) ?_ ?_ ?_ ?_
  · intro k
    show V m c main_v0 (((cfg0.win 0).blk t).view.emb (ix2 (j 0) k)) = V m c main_v0 (ix2 ((((cfg0.win 4).blk t).view.emb j) 0) k)
    refine congrArg (V m c main_v0) (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * k.val = k.val; omega
  · intro k
    show V m c main_arg1 (((cfg0.win 1).blk t).view.emb (ix2 (j 1) k)) = V m c main_arg1 (ix2 ((((cfg0.win 4).blk t).view.emb j) 1) k)
    refine congrArg (V m c main_arg1) (funext fun a => Fin.ext ?_)
    match a with
    | ⟨0, _⟩ => show win0_1.index t (0 : Fin 2) * 1024 + 1 * (j 1).val = win0_4.index t (1 : Fin 2) * 1024 + 1 * (j 1).val; omega
    | ⟨1, _⟩ => show win0_1.index t (1 : Fin 2) * 1024 + 1 * k.val = k.val; omega
  · show V m c main_v3 (((cfg0.win 2).blk t).view.emb (ix2 (0 : Fin 1) (j 1))) = V m c main_v3 (ix2 (0 : Fin 1) ((((cfg0.win 4).blk t).view.emb j) 1))
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_4.index t (1 : Fin 2) * 1024 + 1 * (j 1).val; omega
  · show V m c main_v4 (((cfg0.win 3).blk t).view.emb (ix2 (0 : Fin 1) (j 1))) = V m c main_v4 (ix2 (0 : Fin 1) ((((cfg0.win 4).blk t).view.emb j) 1))
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 1024 + 1 * (j 1).val = win0_4.index t (1 : Fin 2) * 1024 + 1 * (j 1).val; omega

/-- An index of the result array is in point `t`'s block iff each coordinate is in the block's range on its axis. -/
theorem mem_block (t : Fin cfg0.N) (i : S65536x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- Every index is in the block of the point its row falls in. -/
theorem covered (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : (i 0).val / 1024 < cfg0.N := by
    show (i 0).val / 1024 < grid0.N
    rw [N_0]; omega
  refine ⟨⟨(i 0).val / 1024, hN⟩, flush0_4 _, ?_⟩
  rw [mem_block]
  obtain ⟨-, -, -, -, -, -, -, -, e40, e41⟩ := block_indices ⟨(i 0).val / 1024, hN⟩
  have e40' : win0_4.index ⟨(i 0).val / 1024, hN⟩ (0 : Fin 2) = (i 0).val / 1024 := e40
  intro a
  match a with
  | ⟨0, _⟩ =>
    show win0_4.index ⟨(i 0).val / 1024, hN⟩ (0 : Fin 2) * 1024 ≤ (i 0).val
      ∧ (i 0).val < win0_4.index ⟨(i 0).val / 1024, hN⟩ (0 : Fin 2) * 1024 + 1024
    omega
  | ⟨1, _⟩ =>
    show win0_4.index ⟨(i 0).val / 1024, hN⟩ (1 : Fin 2) * 1024 ≤ (i 1).val
      ∧ (i 1).val < win0_4.index ⟨(i 0).val / 1024, hN⟩ (1 : Fin 2) * 1024 + 1024
    omega

/-- The result array after the region. -/
theorem final (c : Dev nD) :
    (dats m 0 c).arrAt 4 cfg0.N = rows (V m c main_v0) (V m c main_arg1) (V m c main_v3) (V m c main_v4) :=
  (dats m 0 c).arrAt_eq_of_cover 4 _ (fun t _ => flushed_eq m c t) covered

end Cert.KernelIdeal.Arr

end
-- ==== Proof.KernelRun.lean ====
/-
  The whole idealized kernel program. Before the region the host flattens `x` to `65536 × 1024`, multiplies the scales by
  the constant and lays the scales and the bias out as one-row matrices; the code matrix goes in as launched. After the
  region the host unflattens the region's `65536 × 1024` result. So the program's result is
  `unflatten (rows (flatten x) w (row (scb · c)) (row bias))`, which is `DequantLinear.out x w scb bias`
  (`DequantLinear.unflatten_rows`), and the arguments end as launched.
-/
import proofs.«170076_j14748917694589_1_alg».proof.Proof.KernelArray
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
open Idealize.SL.Sem Cert.DequantLinear Idealize.ShloMosaic.StableHlo
open Idealize.ShloMosaic.Pipeline (Dat Cfg Window)

variable (m : (ℓ : Loc nD τ sig) → Buf (Elt Ideal) ℓ) (ρ : Dev nD → PrngReg)

/-- The region finds the input flattened. -/
theorem entry_x (c : Dev nD) :
    (V m c main_v0 : S65536x1024.Idx → EReal)
      = shapeCast S65536x1024 (m ((c : Thread nD τ).loc main_arg0)) shapeCasts_S8x8192x1024_S65536x1024 := by
  show StableHlo.after hostOps0 (fun b => m (c, b)) (Proc.devRef .tc main_v0) = _
  after_results
  rfl

/-- The region finds the scales times the constant, as one row. -/
theorem entry_scale (c : Dev nD) :
    (V m c main_v3 : S1x1024.Idx → EReal)
      = shapeCast S1x1024 (mulf (F := Ideal) (φ := .f32) (m ((c : Thread nD τ).loc main_arg2))
          (broadcastInDim S1024 ![] bcast_S_S1024 (constant (F := Ideal) S_ .f32 0x3C010204#32))) shapeCasts_S1024_S1x1024 := by
  show StableHlo.after hostOps0 (fun b => m (c, b)) (Proc.devRef .tc main_v3) = _
  after_results
  rfl

/-- The region finds the bias as one row. -/
theorem entry_bias (c : Dev nD) :
    (V m c main_v4 : S1x1024.Idx → EReal)
      = shapeCast S1x1024 (m ((c : Thread nD τ).loc main_arg3)) shapeCasts_S1024_S1x1024 := by
  show StableHlo.after hostOps0 (fun b => m (c, b)) (Proc.devRef .tc main_v4) = _
  after_results
  rfl

/-- The program's result: the region's array, unflattened, is `out` of the arguments. -/
theorem result_eq (c : Dev nD) :
    Pipeline.afterTail₀ cfgs (dats m) 0 (V0 m) [hostOps1] c main_v6
      = out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  have harr := (Pipeline.withArrays_arr spec0 launch0.win.arr_inj c (V0 m c) (fun w => (dats m 0 c).arrAt w cfg0.N) 4).trans (Arr.final m c)
  have hout : shapeCast S8x8192x1024 (rows (V m c main_v0) (V m c main_arg1) (V m c main_v3) (V m c main_v4))
        shapeCasts_S65536x1024_S8x8192x1024
      = out (m ((c : Thread nD τ).loc main_arg0)) (m ((c : Thread nD τ).loc main_arg1))
          (m ((c : Thread nD τ).loc main_arg2)) (m ((c : Thread nD τ).loc main_arg3)) := by
    rw [entry_x m c, V_main_arg1 m c, entry_scale m c, entry_bias m c]
    exact unflatten_rows _ _ _ _ _ _ _ _
  exact (congrArg (fun y : S65536x1024.Idx → EReal => shapeCast S8x8192x1024 y shapeCasts_S65536x1024_S8x8192x1024) harr).trans hout

/-- The idealized kernel program runs, ends with `out` of its arguments in its result and leaves the arguments as launched. -/
theorem run : θ_run defs (onTc (τ := τ) (main (F := Ideal))) ⟨m, fun _ => 0, ρ⟩ fun r => ∀ c : Dev nD,
      r.2.mem ((c.tc : Thread nD τ).loc main_v6)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference, read at an index. Its last stage is a sum of a product and a broadcast bias; the product is the
  contraction of `x` and `w` over their last axes times the broadcast scale `scb · c`. Reading every stage at
  `(b, s, n)` gives `(Σ_k x[b, s, k] · w[n, k]) · (scb[n] · c) + bias[n]`, which is `DequantLinear.out` as written.
-/
import proofs.«170076_j14748917694589_1_alg».proof.Proof.Gen.ReferenceIdeal.Read
import proofs.«170076_j14748917694589_1_alg».proof.Proof.Spec

noncomputable section

namespace Cert.ReferenceIdeal.RefValue

open Cert.ReferenceIdeal Cert.ReferenceIdeal.Read Idealize.ShloMosaic Idealize.ShloMosaic.ValueIdx Cert.DequantLinear

/-- The contraction reads `x` at `(b, s, k)`, -/
theorem lidx_eq (i : S8x8192x1024.Idx) (k : Fin 1024) : lidx_main_v0 i k = ix3 (i 0) (i 1) k :=
  funext fun a => Fin.ext (by match a with | ⟨0, _⟩ => rfl | ⟨1, _⟩ => rfl | ⟨2, _⟩ => rfl)
/-- and `w` at `(n, k)`. -/
theorem ridx_eq (i : S8x8192x1024.Idx) (k : Fin 1024) : ridx_main_v0 i k = ix2 (i 2) k :=
  funext fun a => Fin.ext (by match a with | ⟨0, _⟩ => rfl | ⟨1, _⟩ => rfl)
/-- The two broadcasts of a vector over the leading axes read it at the last coordinate. -/
theorem scale_idx_eq (i : S8x8192x1024.Idx) : idx_main_v3 (idx_main_v4 i) = ix1 (i 2) :=
  funext fun a => Fin.ext (by match a with | ⟨0, _⟩ => rfl)
theorem bias_idx_eq (i : S8x8192x1024.Idx) : idx_main_v6 (idx_main_v7 i) = ix1 (i 2) :=
  funext fun a => Fin.ext (by match a with | ⟨0, _⟩ => rfl)

/-- The reference's result is `out` of its arguments. -/
theorem reference_eq_out (x : (⟨S8x8192x1024, .f32⟩ : BufTy).Contents (Elt Ideal)) (w : (⟨S1024x1024, .f32⟩ : BufTy).Contents (Elt Ideal))
    (scb bias : (⟨S1024, .f32⟩ : BufTy).Contents (Elt Ideal)) :
    val_main_v8 (F := Ideal) x w scb bias = out x w scb bias := by
  funext i
  rw [val_main_v8_apply, val_main_v5_apply, val_main_v0_apply, val_main_v4_apply, val_main_v3_apply, val_main_v2_apply,
    val_main_v1_apply, val_main_cst_apply, val_main_v7_apply, val_main_v6_apply]
  simp only [lidx_eq, ridx_eq, scale_idx_eq, bias_idx_eq]
  rfl

end Cert.ReferenceIdeal.RefValue

end
-- ==== Proof.lean ====
/-
  An 8-bit-style dequantising linear layer: `out[b, s, n] = (Σ_k x[b, s, k] · w[n, k]) · (scb[n] · c) + bias[n]`, `c` the
  f32 nearest to 1/127.

  The kernel flattens `x` to `65536 × 1024`, and in 64 grid points of 1024 rows each contracts a row block with the whole
  code matrix on the matrix unit (operands narrowed to bf16, f32 accumulation from zero), scales by the one-row
  `scb · c` and adds the one-row bias; the host unflattens the result. The reference is one `dot_general` over the last
  axes, a multiply by the broadcast `scb · c` and an add of the broadcast bias. Over the extended reals narrowing is the
  identity and the zero accumulator drops out, so both are the expression above with the same constant word: no law of
  arithmetic is needed and the precondition is never opened.

  Spec: the expression, in both layouts. KernelBlock: one point's stored block at an entry. KernelArray: the 64 blocks
  tile the flattened result. KernelRun: the host lines around the region. RefValue: the reference read at an index.
  The idealized kernel is the kernel's own text read over the extended reals, with no operation rewritten, so
  `preserves` is trivial.
-/
import proofs.«170076_j14748917694589_1_alg».proof.Defs
import proofs.«170076_j14748917694589_1_alg».proof.Proof.Gen.Kernel
import proofs.«170076_j14748917694589_1_alg».proof.Proof.Gen.Kernel.Skeleton
import proofs.«170076_j14748917694589_1_alg».proof.Proof.Gen.Kernel.Launch
import proofs.«170076_j14748917694589_1_alg».proof.Proof.Gen.Kernel.Points
import proofs.«170076_j14748917694589_1_alg».proof.Proof.Gen.Kernel.Frame
import proofs.«170076_j14748917694589_1_alg».proof.Proof.Gen.KernelIdeal
import proofs.«170076_j14748917694589_1_alg».proof.Proof.Gen.KernelIdeal.Skeleton
import proofs.«170076_j14748917694589_1_alg».proof.Proof.Gen.KernelIdeal.Launch
import proofs.«170076_j14748917694589_1_alg».proof.Proof.Gen.KernelIdeal.Points
import proofs.«170076_j14748917694589_1_alg».proof.Proof.Gen.KernelIdeal.Frame
import proofs.«170076_j14748917694589_1_alg».proof.Proof.Gen.ReferenceIdeal
import proofs.«170076_j14748917694589_1_alg».proof.Proof.Gen.ReferenceIdeal.Run
import proofs.«170076_j14748917694589_1_alg».proof.Proof.Gen.ReferenceIdeal.Read
import proofs.«170076_j14748917694589_1_alg».proof.Proof.Gen.Pre_finite_inputs
import proofs.«170076_j14748917694589_1_alg».proof.Proof.KernelRun
import proofs.«170076_j14748917694589_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `DequantLinear.out` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq_out,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
